-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S64x4096 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S64 : Shape := ⟨1, ![64]⟩
abbrev S64x1 : Shape := ⟨2, ![64, 1]⟩
abbrev S64x32768 : Shape := ⟨2, ![64, 32768]⟩
abbrev S512x4096 : Shape := ⟨2, ![512, 4096]⟩
abbrev S64x512 : Shape := ⟨2, ![64, 512]⟩
abbrev S32768x64 : Shape := ⟨2, ![32768, 64]⟩

abbrev nBuf : Space → Nat
  | .hbm => 6
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S64x1, .f32⟩
  | .hbm, ⟨4, _⟩ => ⟨S64x32768, .f32⟩
  | .hbm, ⟨5, _⟩ => ⟨S32768x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S64x1, .f32⟩
  | .local _ .vmem, ⟨4, _⟩ => ⟨S64x512, .f32⟩
  | .local _ .vmem, ⟨5, _⟩ => ⟨S64x512, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S64x1 : S64.ShapeCasts S64x1
  inb_S64x4096_S64x4096_0_0 : ∀ a, (![0, 0] : Fin 2 → Nat) a + S64x4096.size a ≤ S64x4096.size a
  h_S64x4096 : 0 < S64x4096.numel
  inb_S512x4096_S512x4096_0_0 : ∀ a, (![0, 0] : Fin 2 → Nat) a + S512x4096.size a ≤ S512x4096.size a
  h_S512x4096 : 0 < S512x4096.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x512 : S64x1.Broadcasts S64x512
  inb_S64x512_S64x512_0_0 : ∀ a, (![0, 0] : Fin 2 → Nat) a + S64x512.size a ≤ S64x512.size a
  h_S64x512 : 0 < S64x512.numel
  transposes_S64x32768_S32768x64_1_0 : S64x32768.Transposes [1, 0] S32768x64
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x32768.size a
  hwx0_3 : ∀ i : grid0.Coords, EltTy.bits .f32 = 32 ∨ (Rect.block (s := S64x32768) S64x512.size (cc0_transform_3 i) (hinb0_3 i)).WholeWords (EltTy.packing .f32)

variable [Facts₀]

def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩

abbrev nBuf : Space → Nat
  | .hbm => 8
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.KernelBody.lean ====
/-
  What the kernel body stores, read at one entry, at the ideal instance.

  The body loads the weights w : [64, 4096], one block of 512 token rows xb : [512, 4096] and the bias column
  bc : [64, 1], contracts the LAST axis of w against the LAST axis of xb into a zero accumulator, and adds the bias
  column broadcast along the 512 lanes. At entry (e, j) of the [64, 512] result that is

      (Σ k < 4096, w (e, k) · xb (j, k)) + bc (e, 0).

  The contraction has one axis on each side, so its index set is a copy of `Fin 4096`; the four coordinate lemmas
  below say where the two operands are read for output entry `i` and contraction index `q`:
  left at (i 0, q), right at (i 1, q).
-/
import proofs.«158846_g17806934409993_cont_sun_m_1098_14_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The left operand's row coordinate is the output's row. -/
theorem lhs_axis0 (i : S64x512.Idx) (q : dot_S64x4096_S512x4096_S64x512_1_1_0_0_n_n.contr.Idx) :
    (dot_S64x4096_S512x4096_S64x512_1_1_0_0_n_n.lhsIdx i q 0).val = (i 0).val := by
  unfold DotDims.lhsIdx
  rw [dif_neg (show ¬(0 : Fin S64x4096.rank) ∈ dot_S64x4096_S512x4096_S64x512_1_1_0_0_n_n.lhsBatch by decide), dif_pos (show (0 : Fin S64x4096.rank) ∈ dot_S64x4096_S512x4096_S64x512_1_1_0_0_n_n.lhsNonContracting by decide)]
  rfl
/-- The left operand's column coordinate is the contraction index. -/
theorem lhs_axis1 (i : S64x512.Idx) (q : dot_S64x4096_S512x4096_S64x512_1_1_0_0_n_n.contr.Idx) :
    (dot_S64x4096_S512x4096_S64x512_1_1_0_0_n_n.lhsIdx i q 1).val = (q ⟨0, by decide⟩).val :=
  dot_S64x4096_S512x4096_S64x512_1_1_0_0_n_n.lhsIdx_val_of_single rfl i q
/-- The right operand's row coordinate is the output's column. -/
theorem rhs_axis0 (i : S64x512.Idx) (q : dot_S64x4096_S512x4096_S64x512_1_1_0_0_n_n.contr.Idx) :
    (dot_S64x4096_S512x4096_S64x512_1_1_0_0_n_n.rhsIdx i q 0).val = (i 1).val := by
  unfold DotDims.rhsIdx
  rw [dif_neg (show ¬(0 : Fin S512x4096.rank) ∈ dot_S64x4096_S512x4096_S64x512_1_1_0_0_n_n.rhsBatch by decide), dif_pos (show (0 : Fin S512x4096.rank) ∈ dot_S64x4096_S512x4096_S64x512_1_1_0_0_n_n.rhsNonContracting by decide)]
  rfl
/-- The right operand's column coordinate is the contraction index. -/
theorem rhs_axis1 (i : S64x512.Idx) (q : dot_S64x4096_S512x4096_S64x512_1_1_0_0_n_n.contr.Idx) :
    (dot_S64x4096_S512x4096_S64x512_1_1_0_0_n_n.rhsIdx i q 1).val = (q ⟨0, by decide⟩).val :=
  dot_S64x4096_S512x4096_S64x512_1_1_0_0_n_n.rhsIdx_val_of_single rfl i q

/-- The product into the zero accumulator, at (e, j): the inner product of row e of the weights with row j of the block. -/
theorem product_apply (w : FVec Ideal S64x4096 .f32) (xb : FVec Ideal S512x4096 .f32) (e : Fin 64) (j : Fin 512) :
    matmul dot_S64x4096_S512x4096_S64x512_1_1_0_0_n_n none w xb (constant S64x512 .f32 0x00000000#32) (ix2 e j)
      = ∑ k : Fin 4096, w (ix2 e k) * xb (ix2 j k) := by
  simp only [matmul]
  rw [Ideal.matmul_constant_zero_apply, ← Equiv.sum_comp (contrEquiv1 dot_S64x4096_S512x4096_S64x512_1_1_0_0_n_n 4096 rfl rfl).symm]
  refine Finset.sum_congr rfl fun k _ => ?_
  have hk := contrEquiv1_symm_val dot_S64x4096_S512x4096_S64x512_1_1_0_0_n_n 4096 rfl rfl k
  have el : dot_S64x4096_S512x4096_S64x512_1_1_0_0_n_n.lhsIdx (ix2 e j) ((contrEquiv1 dot_S64x4096_S512x4096_S64x512_1_1_0_0_n_n 4096 rfl rfl).symm k) = ix2 e k := funext fun a => Fin.ext (by
    match a with
    | ⟨0, _⟩ => exact lhs_axis0 _ _
    | ⟨1, _⟩ => exact (lhs_axis1 _ _).trans hk)
  have er : dot_S64x4096_S512x4096_S64x512_1_1_0_0_n_n.rhsIdx (ix2 e j) ((contrEquiv1 dot_S64x4096_S512x4096_S64x512_1_1_0_0_n_n 4096 rfl rfl).symm k) = ix2 j k := funext fun a => Fin.ext (by
    match a with
    | ⟨0, _⟩ => exact rhs_axis0 _ _
    | ⟨1, _⟩ => exact (rhs_axis1 _ _).trans hk)
  rw [el, er]

/-- The bias column broadcast along the lanes, at (e, j), is the column's entry e. -/
theorem bias_apply {F : FTy → Type} [FloatOps F] (bc : FVec F S64x1 .f32) (e : Fin 64) (j : Fin 512) :
    broadcastTo S64x512 (shapeCast S64x1 bc Facts₀.shapeCasts_S64x1_S64x1) Facts₀.broadcasts_S64x1_S64x512 (ix2 e j) = bc (ix2 e 0) := by
  rw [shapeCast_self]
  exact broadcastTo_apply bc Facts₀.broadcasts_S64x1_S64x512 (ix2 e j) (ix2 e 0) (fun a => match a with
    | ⟨0, _⟩ => by show e.val = if (64 : Nat) = 1 then 0 else e.val; rw [if_neg (by decide)]
    | ⟨1, _⟩ => by show 0 = if (1 : Nat) = 1 then 0 else j.val; rw [if_pos rfl])

/-- THE STORED VALUE at (e, j). -/
theorem stored_apply (w : Vec Ideal S64x4096 .f32) (xb : Vec Ideal S512x4096 .f32) (bc : Vec Ideal S64x1 .f32) (e : Fin 64) (j : Fin 512) :
    k0_pay1 (F := Ideal) w xb bc (ix2 e j) = (∑ k : Fin 4096, w (ix2 e k) * xb (ix2 j k)) + bc (ix2 e 0) := by
  unfold k0_pay1
  show matmul (F := Ideal) dot_S64x4096_S512x4096_S64x512_1_1_0_0_n_n none w xb (constant (F := Ideal) S64x512 .f32 0x00000000#32) (ix2 e j)
      + broadcastTo S64x512 (shapeCast S64x1 bc Facts₀.shapeCasts_S64x1_S64x1) Facts₀.broadcasts_S64x1_S64x512 (ix2 e j) = _
  exact congrArg₂ (· + ·) (product_apply w xb e j) (bias_apply (F := Ideal) bc e j)

end Cert.KernelIdeal.Body

end
-- ==== Proof.Spec.lean ====
/-
  The gate logits as ONE function of the three argument arrays, on the extended reals:

      logits x w b (t, e) = (Σ k < 4096, x (t, k) · w (e, k)) + b e

  for tokens t < 32768 and experts e < 64, and the same numbers laid out experts × tokens with the two
  factors of each product exchanged,

      logitsT x w b (e, t) = (Σ k < 4096, w (e, k) · x (t, k)) + b e .

  The two agree entry by entry, `logitsT (e, t) = logits (t, e)`, by commutativity of the product under the
  sum alone: no distributivity and no cancellation, so the infinities need no care and no finiteness
  hypothesis is used.
-/
import Idealize.ShloMosaic.PureOps.Ideal
import Idealize.ShloMosaic.Lib.ValueIdx

noncomputable section

open scoped BigOperators

namespace Cert.GateLogits

open Idealize.ShloMosaic Idealize.ShloMosaic.ValueIdx

/-- Tokens × experts: the inner product of token `t`'s row of `x` with expert `e`'s row of `w`, plus the
    expert's bias. -/
def logits (x : FVec Ideal ⟨2, ![32768, 4096]⟩ .f32) (w : FVec Ideal ⟨2, ![64, 4096]⟩ .f32) (b : FVec Ideal ⟨1, ![64]⟩ .f32) :
    FVec Ideal ⟨2, ![32768, 64]⟩ .f32 :=
  fun i => (∑ k : Fin 4096, x (ix2 (i 0) k) * w (ix2 (i 1) k)) + b (ix1 (i 1))

/-- Experts × tokens, each product with the weight on the left. -/
def logitsT (x : FVec Ideal ⟨2, ![32768, 4096]⟩ .f32) (w : FVec Ideal ⟨2, ![64, 4096]⟩ .f32) (b : FVec Ideal ⟨1, ![64]⟩ .f32) :
    FVec Ideal ⟨2, ![64, 32768]⟩ .f32 :=
  fun i => (∑ k : Fin 4096, w (ix2 (i 0) k) * x (ix2 (i 1) k)) + b (ix1 (i 0))

/-- The transposed layout holds the same numbers: only the order of the two factors differs. -/
theorem logitsT_apply (x : FVec Ideal ⟨2, ![32768, 4096]⟩ .f32) (w : FVec Ideal ⟨2, ![64, 4096]⟩ .f32) (b : FVec Ideal ⟨1, ![64]⟩ .f32)
    (e : Fin 64) (t : Fin 32768) : logitsT x w b (ix2 e t) = logits x w b (ix2 t e) := by
  show (∑ k : Fin 4096, w (ix2 e k) * x (ix2 t k)) + b (ix1 e) = (∑ k : Fin 4096, x (ix2 t k) * w (ix2 e k)) + b (ix1 e)
  exact congrArg (· + b (ix1 e)) (Finset.sum_congr rfl fun k _ => mul_comm _ _)

end Cert.GateLogits

end
-- ==== Proof.KernelValue.lean ====
/-
  The kernel program's result array, at the ideal instance, is `logits` of its three arguments.

  The region has 64 grid points. Point t is handed rows 512 t … 512 t + 511 of the tokens, the whole weight array and
  the whole bias column (the bias reshaped to [64, 1] by the one host line before the region), and writes back block
  (0, t) of a [64, 32768] array: columns 512 t … 512 t + 511. What it writes at (e, j) is the stored value of
  `KernelBody`, which in the arrays' own coordinates is `logitsT` at (e, 512 t + j). The 64 column blocks tile the
  array, so after the region it holds `logitsT` everywhere; the host line after the region transposes it, and
  `logitsT (e, t) = logits (t, e)`.
-/
import proofs.«158846_g17806934409993_cont_sun_m_1098_14_alg».proof.Proof.Gen.KernelIdeal.Frame
import proofs.«158846_g17806934409993_cont_sun_m_1098_14_alg».proof.Proof.KernelBody
import proofs.«158846_g17806934409993_cont_sun_m_1098_14_alg».proof.Proof.Spec
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open Cert.GateLogits

variable (m : (ℓ : Loc nD τ sig) → Buf (Elt Ideal) ℓ) (ρ : Dev nD → PrngReg)

/-- The three arguments as launched, at their literal types. -/
abbrev xarr (c : Dev nD) : FVec Ideal S32768x4096 .f32 := m ((c : Thread nD τ).loc main_arg0)
abbrev warr (c : Dev nD) : FVec Ideal S64x4096 .f32 := m ((c : Thread nD τ).loc main_arg1)
abbrev barr (c : Dev nD) : FVec Ideal S64 .f32 := m ((c : Thread nD τ).loc main_arg2)

theorem hz : (![0, 0] : Fin 2 → Nat) = fun _ => 0 := funext fun a => by fin_cases a <;> rfl

/-! ## The bias column the region finds -/

/-- The host line before the region leaves the bias, reshaped to a column, in the third window's array. -/
theorem biascol_eq (c : Dev nD) :
    (V m c main_v0 : S64x1.Idx → Elt Ideal .f32) = shapeCast S64x1 (barr m c) Facts₀.shapeCasts_S64_S64x1 := by
  show StableHlo.after hostOps0 (fun b => m (c, b)) (Proc.devRef .tc main_v0) = _
  after_results
  rfl

/-- Its entry (e, 0) is the bias of expert e. -/
theorem biascol_apply (c : Dev nD) (e : Fin 64) :
    (V m c main_v0 : S64x1.Idx → Elt Ideal .f32) (ix2 e 0) = barr m c (ix1 e) := by
  rw [biascol_eq]
  exact shapeCast_apply (barr m c) Facts₀.shapeCasts_S64_S64x1 (ix2 e 0) (ix1 e) (by
    rw [Shape.rowMajor_val_one, Shape.rowMajor_val_two]
    show e.val = e.val * 1 + 0
    omega)

/-! ## The block indices over the grid -/

/-- Point t reads token block t, the one weight block, the one bias block, and writes column block t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-! ## The input blocks as rows of the arguments -/

/-- Row j of point t's token block is row 512 t + j of the tokens. -/
theorem xblk_apply (c : Dev nD) (t : Fin cfg0.N) (j : Fin 512) (k : Fin 4096) (r : Fin 32768) (hr : r.val = 512 * t.val + j.val) :
    (iblk m c 0 t : Vec Ideal S512x4096 .f32) (ix2 j k) = xarr m c (ix2 r k) := by
  obtain ⟨h00, h01, -⟩ := idx_facts t
  unfold iblk
  rw [View.read_apply]
  show V m c main_arg0 _ = m (c.tc.loc main_arg0) _
  rw [V_main_arg0 m c]
  refine congrArg _ (funext fun a => Fin.ext ?_)
  match a with
  | ⟨0, _⟩ => show win0_0.index t (0 : Fin 2) * 512 + 1 * j.val = r.val; rw [h00, hr]; omega
  | ⟨1, _⟩ => show win0_0.index t (1 : Fin 2) * 4096 + 1 * k.val = k.val; rw [h01]; omega

/-- The weight block is the weight array. -/
theorem wblk_apply (c : Dev nD) (t : Fin cfg0.N) (e : Fin 64) (k : Fin 4096) :
    (iblk m c 1 t : Vec Ideal S64x4096 .f32) (ix2 e k) = warr m c (ix2 e k) := by
  obtain ⟨-, -, h10, h11, -⟩ := idx_facts t
  unfold iblk
  rw [View.read_apply]
  show V m c main_arg1 _ = m (c.tc.loc main_arg1) _
  rw [V_main_arg1 m c]
  refine congrArg _ (funext fun a => Fin.ext ?_)
  match a with
  | ⟨0, _⟩ => show win0_1.index t (0 : Fin 2) * 64 + 1 * e.val = e.val; rw [h10]; omega
  | ⟨1, _⟩ => show win0_1.index t (1 : Fin 2) * 4096 + 1 * k.val = k.val; rw [h11]; omega

/-- The bias block's entry (e, 0) is the bias of expert e. -/
theorem bblk_apply (c : Dev nD) (t : Fin cfg0.N) (e : Fin 64) :
    (iblk m c 2 t : Vec Ideal S64x1 .f32) (ix2 e 0) = barr m c (ix1 e) := by
  obtain ⟨-, -, -, -, h20, h21, -⟩ := idx_facts t
  unfold iblk
  rw [View.read_apply]
  show V m c main_v0 _ = _
  refine Eq.trans (congrArg _ (funext fun a => Fin.ext ?_)) (biascol_apply m c e)
  match a with
  | ⟨0, _⟩ => show win0_2.index t (0 : Fin 2) * 64 + 1 * e.val = e.val; rw [h20]; omega
  | ⟨1, _⟩ => show win0_2.index t (1 : Fin 2) * 1 + 1 * 0 = 0; rw [h21]

/-! ## What a point writes back -/

/-- The stored value over blocks that are rows of arrays X, W, B as above, at an entry y of the block, is `logitsT` of
    the arrays at the entry i with the same row and with column 512 t + (y's column). -/
theorem stored_eq_logitsT (xb : Vec Ideal S512x4096 .f32) (wb : Vec Ideal S64x4096 .f32) (bc : Vec Ideal S64x1 .f32)
    (X : FVec Ideal S32768x4096 .f32) (W : FVec Ideal S64x4096 .f32) (B : FVec Ideal S64 .f32) (tv : Nat)
    (hx : ∀ (j : Fin 512) (k : Fin 4096) (r : Fin 32768), r.val = 512 * tv + j.val → xb (ix2 j k) = X (ix2 r k))
    (hw : ∀ (e : Fin 64) (k : Fin 4096), wb (ix2 e k) = W (ix2 e k))
    (hb : ∀ e : Fin 64, bc (ix2 e 0) = B (ix1 e))
    (y : S64x512.Idx) (i : S64x32768.Idx) (hi0 : (i 0).val = (y 0).val) (hi1 : (i 1).val = 512 * tv + (y 1).val) :
    k0_pay1 (F := Ideal) wb xb bc y = logitsT X W B i := by
  obtain ⟨e, j, rfl⟩ : ∃ (e : Fin 64) (j : Fin 512), y = ix2 e j := ⟨y 0, y 1, eq_ix2 y⟩
  obtain ⟨e', r, rfl⟩ : ∃ (e' : Fin 64) (r : Fin 32768), i = ix2 e' r := ⟨i 0, i 1, eq_ix2 i⟩
  obtain rfl : e' = e := Fin.ext hi0
  rw [Body.stored_apply]
  show _ = (∑ k : Fin 4096, W (ix2 e' k) * X (ix2 r k)) + B (ix1 e')
  rw [hb]
  exact congrArg (· + B (ix1 e')) (Finset.sum_congr rfl fun k _ => by rw [hw, hx j k r hi1])

/-- WHAT POINT t WRITES BACK is block t of `logitsT` of the arguments. -/
theorem flushed_eq (c : Dev nD) (t : Fin cfg0.N) :
    (dats m 0 c).flushed 3 t = ((cfg0.win 3).blk t).view.read (Elt Ideal) (logitsT (xarr m c) (warr m c) (barr m c)) := by
  show (cfg0.win 3).cut (grid0.coords t) ((dats m 0 c).after 3 t) = _
  rw [after0_3]
  unfold out0_3
  rw [View.canon_unit_zero hz]
  simp only [View.ld_unit_zero (S := S64x4096) hz, View.ld_unit_zero (S := S512x4096) hz, View.ld_unit_zero (S := S64x1) hz]
  obtain ⟨-, -, -, -, -, -, h30, h31⟩ := idx_facts t
  funext y
  show k0_pay1 (F := Ideal) (iblk m c 1 t) (iblk m c 0 t) (iblk m c 2 t) y
      = logitsT (xarr m c) (warr m c) (barr m c) (((cfg0.win 3).blk t).view.emb y)
  refine stored_eq_logitsT (iblk m c 0 t) (iblk m c 1 t) (iblk m c 2 t) (xarr m c) (warr m c) (barr m c) t.val
    (fun j k r hr => xblk_apply m c t j k r hr) (fun e k => wblk_apply m c t e k) (fun e => bblk_apply m c t e) y _ ?_ ?_
  · show win0_3.index t (0 : Fin 2) * 64 + 1 * (y 0).val = (y 0).val
    rw [h30]; omega
  · show win0_3.index t (1 : Fin 2) * 512 + 1 * (y 1).val = 512 * t.val + (y 1).val
    rw [h31]; omega

/-! ## The array after the region -/

/-- An entry is in point t's block iff each coordinate is in the block's range on its axis. -/
theorem mem_blk (t : Fin cfg0.N) (i : S64x32768.Idx) :
    i ∈ ((cfg0.win 3).blk t).view.set ↔ ∀ a : Fin 2, win0_3.index t a * S64x512.size a ≤ (i a).val ∧ (i a).val < win0_3.index t a * S64x512.size a + S64x512.size a := by
  show i ∈ ((View.whole main_v1).slice (win0_3.rect t)).set ↔ _
  rw [View.set_slice_whole, Rect.mem_set_unit]
  exact Iff.rfl

/-- Column c of the array lies in the block of point c / 512: the 64 column blocks cover the array. -/
theorem covered (i : S64x32768.Idx) :
    ∃ t : Fin cfg0.N, (cfg0.win 3).flush t = true ∧ i ∈ ((cfg0.win 3).blk t).view.set := by
  have hi0 : (i 0).val < 64 := (i 0).isLt
  have hi1 : (i 1).val < 32768 := (i 1).isLt
  have hN : cfg0.N = 64 := N_0
  obtain ⟨t, ht⟩ : ∃ t : Fin cfg0.N, t.val = (i 1).val / 512 := ⟨⟨(i 1).val / 512, by rw [hN]; omega⟩, rfl⟩
  obtain ⟨-, -, -, -, -, -, h30, h31⟩ := idx_facts t
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 512 ≤ (i 1).val ∧ (i 1).val < win0_3.index t (1 : Fin 2) * 512 + 512; omega

/-- THE ARRAY after the region is `logitsT` of the arguments. -/
theorem final (c : Dev nD) : (dats m 0 c).arrAt 3 cfg0.N = logitsT (xarr m c) (warr m c) (barr m c) :=
  (dats m 0 c).arrAt_eq_of_cover 3 _ (fun t _ => flushed_eq m c t) covered

/-! ## The result after the transpose -/

/-- The host line after the region leaves `logits` of the arguments in the result. -/
theorem result_eq (c : Dev nD) :
    Pipeline.afterTail₀ cfgs (dats m) 0 (V0 m) [hostOps1] c main_v2 = logits (xarr m c) (warr m c) (barr m c) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v1)
      = logitsT (xarr m c) (warr m c) (barr m c) :=
    (Pipeline.withArrays_arr spec0 launch0.win.arr_inj c _ _ 3).trans (final m c)
  rw [hA]
  funext i
  obtain ⟨t, e, rfl⟩ : ∃ (t : Fin 32768) (e : Fin 64), i = ix2 t e := ⟨i 0, i 1, eq_ix2 i⟩
  rw [← logitsT_apply]
  exact transpose_apply [1, 0] _ Facts₀.transposes_S64x32768_S32768x64_1_0 (ix2 t e) (ix2 e t) (fun b => match b with
    | ⟨0, _⟩ => rfl
    | ⟨1, _⟩ => rfl)

/-! ## The run, read -/

/-- Every weakly fair execution of the program ends with the result at `logits` of the arguments and the arguments
    as launched: the frame run, with the result's buffer read through the host line after the region. -/
theorem run : θ_run defs (onTc (τ := τ) (main (F := Ideal))) ⟨m, fun _ => 0, ρ⟩ fun r => ∀ c : Dev nD,
      r.2.mem ((c.tc : Thread nD τ).loc main_v2) = logits (xarr m c) (warr m c) (barr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (Pipeline.mem_restRefs_of main_v2 (by decide) (by decide))).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.Hand

end
-- ==== Proof.RefValue.lean ====
/-
  The reference program's result, at the ideal instance, is `logits` of its three arguments.

  The program transposes the weights to [4096, 64], contracts the tokens' rows against them, broadcasts the bias
  along the tokens and adds. Read at an entry (t, e): the contraction is the sum over k of x (t, k) times the
  transposed weights at (k, e), which is w (e, k); the two broadcasts read the bias at e. That is `logits`
  term for term, the factors already in its order.
-/
import proofs.«158846_g17806934409993_cont_sun_m_1098_14_alg».proof.Proof.Gen.ReferenceIdeal.Read
import proofs.«158846_g17806934409993_cont_sun_m_1098_14_alg».proof.Proof.Spec

noncomputable section

open scoped BigOperators

namespace Cert.ReferenceIdeal.RefValue

open Cert.ReferenceIdeal Cert.ReferenceIdeal.Read Idealize.ShloMosaic Idealize.ShloMosaic.ValueIdx

/-- The last stage of the reference, entry by entry, is the inner product of the token's row with the expert's row
    plus the expert's bias. -/
theorem result_eq_logits (x0 : (⟨S32768x4096, .f32⟩ : BufTy).Contents (Elt Ideal)) (x1 : (⟨S64x4096, .f32⟩ : BufTy).Contents (Elt Ideal))
    (x2 : (⟨S64, .f32⟩ : BufTy).Contents (Elt Ideal)) :
    val_main_v4 (F := Ideal) x0 x1 x2 = Cert.GateLogits.logits x0 x1 x2 := by
  funext i
  -- the left factor is read at (t, k)
  have e1 : ∀ k : Fin 4096, lidx_main_v1 i k = ix2 (i 0) k := fun k => funext fun a => by
    match a with
    | ⟨0, _⟩ => rfl
    | ⟨1, _⟩ => rfl
  -- the right factor, through the transpose, at (e, k)
  have e2 : ∀ k : Fin 4096, idx_main_v0 (ridx_main_v1 i k) = ix2 (i 1) k := fun k => funext fun a => by
    match a with
    | ⟨0, _⟩ => rfl
    | ⟨1, _⟩ => rfl
  -- the bias, through both broadcasts, at e
  have e3 : idx_main_v2 (idx_main_v3 i) = ix1 (i 1) := funext fun a => by
    match a with
    | ⟨0, _⟩ => rfl
  rw [val_main_v4_apply, val_main_v1_apply, val_main_v3_apply, val_main_v2_apply, e3]
  simp only [val_main_v0_apply, e1, e2]
  rfl

end Cert.ReferenceIdeal.RefValue

end
-- ==== Proof.lean ====
/-
  The gate logits of a mixture-of-experts layer: a Pallas kernel against `x @ W.T + b`.

  Both programs compute, for token t < 32768 and expert e < 64,

      out (t, e) = (Σ k < 4096, x (t, k) · W (e, k)) + b e.

  The reference contracts the tokens against the transposed weights and adds the bias broadcast along the tokens
  (`RefValue`). The kernel runs a grid of 64 points; point i contracts the weights against token rows
  512 i … 512 i + 511, adds the bias column along the lanes, and writes column block i of an experts × tokens array,
  which a host transpose turns into tokens × experts (`KernelBody`, `KernelValue`). On the extended reals the two
  differ only in the order of the two factors of each product (`Spec`), so they agree for every input: the
  finiteness of the inputs is not used, and the idealization rewrote nothing, so `preserves` has nothing to state.
-/
import proofs.«158846_g17806934409993_cont_sun_m_1098_14_alg».proof.Defs
import proofs.«158846_g17806934409993_cont_sun_m_1098_14_alg».proof.Proof.Gen.Kernel
import proofs.«158846_g17806934409993_cont_sun_m_1098_14_alg».proof.Proof.Gen.Kernel.Frame
import proofs.«158846_g17806934409993_cont_sun_m_1098_14_alg».proof.Proof.Gen.KernelIdeal
import proofs.«158846_g17806934409993_cont_sun_m_1098_14_alg».proof.Proof.Gen.KernelIdeal.Frame
import proofs.«158846_g17806934409993_cont_sun_m_1098_14_alg».proof.Proof.Gen.ReferenceIdeal
import proofs.«158846_g17806934409993_cont_sun_m_1098_14_alg».proof.Proof.Gen.ReferenceIdeal.Run
import proofs.«158846_g17806934409993_cont_sun_m_1098_14_alg».proof.Proof.Gen.ReferenceIdeal.Read
import proofs.«158846_g17806934409993_cont_sun_m_1098_14_alg».proof.Proof.Gen.Pre_finite_inputs
import proofs.«158846_g17806934409993_cont_sun_m_1098_14_alg».proof.Proof.KernelValue
import proofs.«158846_g17806934409993_cont_sun_m_1098_14_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with the result at `logits` of those
    arguments: the kernel's by its run read through the region and the transpose, the reference's stage by stage. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq_logits,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
